-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : FVec F S33554432 .f32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  let main_v4 : FVec F S33554432 .f32 := Host.absf main_arg1
  let main_cst_0 : FVec F S_ .f32 := constant S_ .f32 0x7F800000#32
  let main_v5 : FVec F S33554432 .f32 := broadcastInDim S33554432 ![] bcast_S_S33554432 main_cst_0
  let main_v6 : IVec S33554432 1 := cmpf .olt main_v4 main_v5
  let main_c_1 : IVec S_ 1 := constantI S_ 1 1#1
  let main_v7 : IVec S_ 1 := (fun x v => Host.reduce IntOp.andi x v reducesTo_S33554432_S_d0 h_S_) main_v6 main_c_1
  let main_v8 : IVec S_ 1 := andi main_v3 main_v7
  main_v8
-- ==== Kernel.lean ====
abbrev S33554432 : Shape := ⟨1, ![33554432]⟩
abbrev S262144x128 : Shape := ⟨2, ![262144, 128]⟩
abbrev S1x128 : Shape := ⟨2, ![1, 128]⟩
abbrev S8192x128 : Shape := ⟨2, ![8192, 128]⟩
abbrev S128 : Shape := ⟨1, ![128]⟩
abbrev S_ : Shape := ⟨0, ![]⟩

abbrev nBuf : Space → Nat
  | .hbm => 9
  | .vmem => 5
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S262144x128, .f32⟩
  | .hbm, ⟨3, _⟩ => ⟨S262144x128, .f32⟩
  | .hbm, ⟨4, _⟩ => ⟨S1x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S1x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S33554432_S262144x128 : S33554432.ShapeCasts S262144x128
  inb_S1x128_S1x128_0_0 : ∀ a, (![0, 0] : Fin 2 → Nat) a + S1x128.size a ≤ S1x128.size a
  h_S1x128 : 0 < S1x128.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S1x128_S1x128 : S1x128.ShapeCasts S1x128
  reduces_S8192x128_S128 : S8192x128.Reduces [0] S128
  shapeCasts_S128_S1x128 : S128.ShapeCasts S1x128
  reducesTo_S1x128_S_d0_1 : S1x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .f32 = 32 ∨ (Rect.block (s := S262144x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S33554432 : Shape := ⟨1, ![33554432]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S33554432, .f32⟩
  | .hbm, ⟨3, _⟩ => ⟨S_, .f32⟩
  | .hbm, ⟨4, _⟩ => ⟨S33554432, .f32⟩
  | .hbm, ⟨5, _⟩ => ⟨S33554432, .f32⟩
  | .hbm, ⟨6, _⟩ => ⟨S_, .f32⟩
  | .hbm, ⟨7, _⟩ => ⟨S33554432, .f32⟩
  | .hbm, ⟨8, _⟩ => ⟨S33554432, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)
  reducesTo_S33554432_S_d0 : S33554432.ReducesTo [0] S_
  h_S_ : 0 < S_.numel

variable [Facts₀]

class Facts : Prop extends Facts₀ where

variable [Facts]
-- ==== Proof.TiledSum.lean ====
/-
  Sums over a flat array of 2^25 entries laid out as 32 tiles of 8192 rows of 128 lanes.

  The flat position of (tile t, row r, lane l) is (t * 8192 + r) * 128 + l.  Every flat position below
  2^25 has exactly one such triple, so the sum of any function over all flat positions is the sum over
  the lanes of the sum over the tiles of the sum over a tile's rows.  Only commutativity and
  associativity of the addition are used, so the law holds in every commutative monoid, the extended
  reals with their infinities included.

  A second law says what a running total is: a sequence that starts at g 0 and adds g (n + 1) at every
  step holds, after step n, the sum of g over the first n + 1 steps.
-/
import Idealize.ShloMosaic.Lib.ValueIdx

noncomputable section

open scoped BigOperators

namespace Cert.HingeMean

open Idealize.ShloMosaic Idealize.ShloMosaic.ValueIdx

/-- A rank-1 index is its one coordinate … -/
def idxEquiv1 {n : Nat} : (⟨1, ![n]⟩ : Shape).Idx ≃ Fin n where
  toFun i := i 0
  invFun k := ix1 k
  left_inv i := (eq_ix1 i).symm
  right_inv _ := rfl

/-- … so a sum over a rank-1 index set is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- The flat position of row `r` of tile `t`, lane `l`. -/
def flat (t : Fin 32) (r : Fin 8192) (l : Fin 128) : Fin 33554432 :=
  ⟨(t.val * 8192 + r.val) * 128 + l.val, by have := t.isLt; have := r.isLt; have := l.isLt; omega⟩

/-- Lane, tile and row of a flat position: remainder by 128, then quotient and remainder by 8192. -/
def tileEquiv : Fin 128 × Fin 32 × Fin 8192 ≃ Fin 33554432 where
  toFun p := flat p.2.1 p.2.2 p.1
  invFun k := (⟨k.val % 128, by omega⟩, ⟨k.val / 128 / 8192, by have := k.isLt; omega⟩, ⟨k.val / 128 % 8192, by omega⟩)
  left_inv := by
    rintro ⟨l, t, r⟩
    have := t.isLt; have := r.isLt; have := l.isLt
    refine Prod.ext (Fin.ext ?_) (Prod.ext (Fin.ext ?_) (Fin.ext ?_)) <;> simp only [flat] <;> omega
  right_inv k := by
    apply Fin.ext
    have := k.isLt
    simp only [flat]
    omega

/-- The sum over all flat positions, lane by lane, tile by tile, row by row. -/
theorem sum_tiles {M : Type*} [AddCommMonoid M] (f : Fin 33554432 → M) :
    ∑ l : Fin 128, ∑ t : Fin 32, ∑ r : Fin 8192, f (flat t r l) = ∑ k : Fin 33554432, f k := by
  rw [← Equiv.sum_comp tileEquiv f, Fintype.sum_prod_type]
  refine Finset.sum_congr rfl fun l _ => ?_
  rw [Fintype.sum_prod_type]
  rfl

/-- A running total: it starts at `g 0` and step `n + 1` adds `g (n + 1)`; after step `n` it is the sum of
    `g` over the steps `0 … n`. -/
theorem running_total {M : Type*} [AddCommMonoid M] (N : ℕ) (g : Fin N → M) (acc : (n : ℕ) → n < N → M)
    (h0 : ∀ h : 0 < N, acc 0 h = g ⟨0, h⟩)
    (hs : ∀ n (h : n + 1 < N), acc (n + 1) h = acc n (Nat.lt_of_succ_lt h) + g ⟨n + 1, h⟩) :
    ∀ n (h : n < N), acc n h = ∑ t : Fin (n + 1), g ⟨t.val, lt_of_le_of_lt (Nat.le_of_lt_succ t.isLt) h⟩
  | 0, h => by
    rw [h0 h, Fin.sum_univ_one]
    rfl
  | n + 1, h => by
    rw [hs n h, running_total N g acc h0 hs n (Nat.lt_of_succ_lt h)]
    conv_rhs => rw [Fin.sum_univ_castSucc]
    rfl

end Cert.HingeMean

end
-- ==== Proof.Hinge.lean ====
/-
  The mathematics both programs compute.

  For two flat arrays a, b of 2^25 extended reals, the hinge of one pair is  max 0 (c - (a_k - b_k))  with c the
  single-precision word nearest to one tenth (the same word in both programs, so its value is never needed), the
  total is the sum of the hinges over all positions, and the result is  (0 + total) / 2^25  with the division the
  ideal instance's (the same divisor word in both programs).
-/
import proofs.«129268_j82171314307698_1_alg».proof.Proof.TiledSum
import Idealize.ShloMosaic.PureOps.Ideal

noncomputable section

open scoped BigOperators

namespace Cert.HingeMean

open Idealize.ShloMosaic Idealize.ShloMosaic.ValueIdx

/-- The hinge of one pair: `max 0 (c - (x - y))`, the zero and the margin as the words the programs print. -/
def hinge (x y : EReal) : EReal :=
  max (Ideal.ofBits .f32 0x00000000#32) (Ideal.ofBits .f32 0x3DCCCCCD#32 - (x - y))

/-- The sum of the hinges over every position of the two flat arrays. -/
def total (a b : (⟨1, ![33554432]⟩ : Shape).Idx → EReal) : EReal :=
  ∑ k : Fin 33554432, hinge (a (ix1 k)) (b (ix1 k))

/-- The mean hinge as both programs form it: the total added to the zero word, divided by the word of 2^25. -/
def mean (a b : (⟨1, ![33554432]⟩ : Shape).Idx → EReal) : (⟨0, ![]⟩ : Shape).Idx → EReal :=
  fun _ => Ideal.div (Ideal.ofBits .f32 0x00000000#32 + total a b) (Ideal.ofBits .f32 0x4C000000#32)

end Cert.HingeMean

end
-- ==== Proof.TileTotal.lean ====
/-
  One grid step of the kernel, read at a lane.

  The step's store writes, at lane l of the one output row, what the row held before plus the sum, over the 8192
  rows r of the two input tiles, of the hinge of the tiles' entries at (r, l): the column sum of the tile of hinges.
-/
import proofs.«129268_j82171314307698_1_alg».proof.Proof.Gen.KernelIdeal.Skeleton
import proofs.«129268_j82171314307698_1_alg».proof.Proof.Hinge
import Idealize.ShloMosaic.Lib.Pipeline.Value
import Idealize.ShloMosaic.Lib.ValueLayout
import Idealize.ShloMosaic.PureOps.Ideal.Laws

noncomputable section

open scoped BigOperators

namespace Cert.KernelIdeal.HingeValue

open Idealize.ShloMosaic Idealize.ShloMosaic.ValueIdx Cert.KernelIdeal Cert.KernelIdeal.Gen Cert.HingeMean

/-- Row `r` put back in front of lane `l`: the index of the tile that the column sum at lane `l` visits at `r`. -/
theorem lift_lane (l : Fin 128) (r : Fin 8192) :
    (reduces_S8192x128_S128.lift (ix1 l) r : S8192x128.Idx) = ix2 r l := by
  funext a
  match a with
  | ⟨0, _⟩ => exact Fin.ext rfl
  | ⟨1, _⟩ => exact Fin.ext rfl

/-- The column sum of a tile at lane `l` is the sum over the tile's rows. -/
theorem column_sum (v : FVec Ideal S8192x128 .f32) (hφ : FKind.Formats .f32)
    (hacc : (0x00000000#32 : BitVec 32) = 0x00000000#32) (l : Fin 128) :
    multiReduction .add [0] S128 v 0x00000000#32 reduces_S8192x128_S128 hφ hacc (ix1 l)
      = ∑ r : Fin 8192, v (ix2 r l) := by
  refine (Ideal.multiReduction_add_single v 0x00000000#32 reduces_S8192x128_S128 hφ hacc (ix1 l)).trans ?_
  exact Finset.sum_congr rfl fun r _ => congrArg v (lift_lane l r)

/-- The step's stored row at lane `l`: the row before, plus the tile's column of hinges summed. -/
theorem step_apply (x0 x1 : FVec Ideal S8192x128 .f32) (xo : FVec Ideal S1x128 .f32) (u : Fin 1) (l : Fin 128) :
    k0_pay2 (F := Ideal) x0 x1 xo (ix2 u l)
      = xo (ix2 u l) + ∑ r : Fin 8192, hinge (x0 (ix2 r l)) (x1 (ix2 r l)) := by
  unfold k0_pay2
  dsimp only
  rw [addf_apply, shapeCast_self, shapeCast_a_1a_apply, column_sum, shapeCast_self, shapeCast_self]
  rfl

/-- The row the first step starts from is zero everywhere. -/
theorem reset_apply (j : S1x128.Idx) : k0_pay1 (F := Ideal) j = 0 := by
  unfold k0_pay1
  exact Ideal.ofBits_zero_f32

end Cert.KernelIdeal.HingeValue

end
-- ==== Proof.Accumulate.lean ====
/-
  The output row across the grid.

  The kernel keeps one row of 128 lanes in its output block for all 32 grid steps.  Step 0 stores zero into it and
  then adds the column sums of its tile of hinges; every later step adds its own tile's column sums to what the step
  before left.  So after step n, lane l of the row holds the sum over the steps 0 … n of the step's column sum at
  lane l: a running total, proved by induction on the step from the two cases of one step.
-/
import proofs.«129268_j82171314307698_1_alg».proof.Proof.Gen.KernelIdeal.Frame
import proofs.«129268_j82171314307698_1_alg».proof.Proof.TileTotal
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.SL.Sem
open Idealize.ShloMosaic.Pipeline (Dat)

namespace Cert.KernelIdeal.HingeValue

open Cert.KernelIdeal Cert.KernelIdeal.Gen Cert.HingeMean Idealize.ShloMosaic.ValueIdx

section Pieces

variable {F : FTy → Type} [FloatOps F]

theorem hz : (![0, 0] : Fin 2 → Nat) = fun _ => 0 := funext fun a => by fin_cases a <;> rfl

/-- A step that is not the first leaves in the row, which held `xo`, the step's stored value over the two tiles and `xo`:
    its one store covers the row, and its loads read the whole buffers. -/
theorem out_B (c : Dev nD) (i : grid0.Coords) (a1 : Memref sig .tc .vmem S8192x128 .f32) (h1 : a1.IsWhole)
    (a2 : Memref sig .tc .vmem S8192x128 .f32) (h2 : a2.IsWhole) (a3 : Memref sig .tc .vmem S1x128 .f32) (h3 : a3.IsWhole)
    (hc : ¬cond0_0 i) (x0 x1 : Vec F S8192x128 .f32) (xo : Vec F S1x128 .f32) :
    out0_B_2 c i a1 h1 a2 h2 a3 h3 hc x0 x1 xo = k0_pay2 x0 x1 xo := by
  unfold out0_B_2
  rw [View.read_writes_eq_canon _ _ _ (cover0_B_2 c i a1 h1 a2 h2 a3 h3 hc x0 x1 xo)]
  unfold kernelRun0_B
  dsimp only
  sl_unfold_words
  rw [View.canon_unit_zero hz]
  simp only [View.readAt_eq_ld, h1.read_unread, h2.read_unread, h3.read_unread, View.ld_unit_zero (S := S8192x128) hz,
    View.ld_unit_zero (S := S1x128) hz]

/-- The first step stores the zero row, reads it back, and leaves the step's stored value over the two tiles and the
    zero row. -/
theorem out_A (c : Dev nD) (i : grid0.Coords) (a1 : Memref sig .tc .vmem S8192x128 .f32) (h1 : a1.IsWhole)
    (a2 : Memref sig .tc .vmem S8192x128 .f32) (h2 : a2.IsWhole) (a3 : Memref sig .tc .vmem S1x128 .f32) (h3 : a3.IsWhole)
    (hc : cond0_0 i) (x0 x1 : Vec F S8192x128 .f32) :
    out0_A_2 c i a1 h1 a2 h2 a3 h3 hc x0 x1 = k0_pay2 x0 x1 (k0_pay1 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x128) hz, View.readCov_unit_zero (S := S1x128) _ hz]
  simp only [View.readAt_eq_ld, h1.read_unread, h2.read_unread, View.ld_unit_zero (S := S8192x128) hz,
    View.ld_unit_zero (S := S1x128) hz]

end Pieces

variable (m : (ℓ : Loc nD τ sig) → Buf (Elt Ideal) ℓ)

/-- The two input tiles the step at grid point `t` reads. -/
abbrev tileA (c : Dev nD) (t : Fin cfg0.N) : FVec Ideal S8192x128 .f32 := iblk m c 0 t
abbrev tileB (c : Dev nD) (t : Fin cfg0.N) : FVec Ideal S8192x128 .f32 := iblk m c 1 t

/-- The row after step `n`. -/
abbrev rowAt (c : Dev nD) (n : ℕ) (h : n < cfg0.N) : FVec Ideal S1x128 .f32 := outsAt0 m c n h

/-- Step `t`'s column sum at lane `l`: the hinges of the tiles' entries down the column. -/
def tileSum (c : Dev nD) (l : Fin 128) (t : Fin cfg0.N) : EReal :=
  ∑ r : Fin 8192, hinge (tileA m c t (ix2 r l)) (tileB m c t (ix2 r l))

/-- After step 0 the row holds step 0's column sums (the zero it started from added in). -/
theorem row_zero (c : Dev nD) (l : Fin 128) (h : 0 < cfg0.N) :
    rowAt m c 0 h (ix2 0 l) = tileSum m c l ⟨0, h⟩ := by
  refine (congrFun (outsAt0_A m c ⟨0, h⟩ rfl) (ix2 0 l)).trans ?_
  refine (congrFun (out_A (F := Ideal) c (grid0.coords ⟨0, h⟩) (ms0_0 ⟨0, h⟩) (hs0_0 ⟨0, h⟩) (ms0_1 ⟨0, h⟩) (hs0_1 ⟨0, h⟩)
    (ms0_2 ⟨0, h⟩) (hs0_2 ⟨0, h⟩) ((hcond0_0 ⟨0, h⟩).mpr rfl) (tileA m c ⟨0, h⟩) (tileB m c ⟨0, h⟩)) (ix2 0 l)).trans ?_
  refine (step_apply (tileA m c ⟨0, h⟩) (tileB m c ⟨0, h⟩) (k0_pay1 (F := Ideal)) 0 l).trans ?_
  rw [reset_apply, zero_add]
  rfl

/-- Step `n + 1` adds its column sums to what step `n` left. -/
theorem row_succ (c : Dev nD) (l : Fin 128) (n : ℕ) (h : n + 1 < cfg0.N) :
    rowAt m c (n + 1) h (ix2 0 l) = rowAt m c n (Nat.lt_of_succ_lt h) (ix2 0 l) + tileSum m c l ⟨n + 1, h⟩ := by
  have hB : ¬(⟨n + 1, h⟩ : Fin cfg0.N).val % 32 = 0 := by
    have hN : n + 1 < 32 := lt_of_lt_of_eq h N_0
    dsimp only; omega
  refine (congrFun (outsAt0_B m c ⟨n + 1, h⟩ hB) (ix2 0 l)).trans ?_
  refine (congrFun (out_B (F := Ideal) c (grid0.coords ⟨n + 1, h⟩) (ms0_0 ⟨n + 1, h⟩) (hs0_0 ⟨n + 1, h⟩) (ms0_1 ⟨n + 1, h⟩) (hs0_1 ⟨n + 1, h⟩)
    (ms0_2 ⟨n + 1, h⟩) (hs0_2 ⟨n + 1, h⟩) (fun hh => hB ((hcond0_0 ⟨n + 1, h⟩).mp hh)) (tileA m c ⟨n + 1, h⟩) (tileB m c ⟨n + 1, h⟩)
    (rowAt m c n (Nat.lt_of_succ_lt h))) (ix2 0 l)).trans ?_
  exact step_apply (tileA m c ⟨n + 1, h⟩) (tileB m c ⟨n + 1, h⟩) (rowAt m c n (Nat.lt_of_succ_lt h)) 0 l

/-- THE RUNNING TOTAL: after step `n`, lane `l` of the row is the sum of the column sums of the steps `0 … n`. -/
theorem row_eq (c : Dev nD) (l : Fin 128) (n : ℕ) (h : n < cfg0.N) :
    rowAt m c n h (ix2 0 l) = ∑ t : Fin (n + 1), tileSum m c l ⟨t.val, lt_of_le_of_lt (Nat.le_of_lt_succ t.isLt) h⟩ :=
  running_total cfg0.N (tileSum m c l) (fun n h => rowAt m c n h (ix2 0 l)) (row_zero m c l) (row_succ m c l) n h

end Cert.KernelIdeal.HingeValue

end
-- ==== Proof.Tiles.lean ====
/-
  Where a tile's entry lies in the flat input.

  Before the kernel runs the host reshapes each flat input of 2^25 entries into 262144 rows of 128 lanes, in row-major
  order: entry (R, l) of the rows is entry R * 128 + l of the flat array.  The step at grid point t reads the tile of
  rows t * 8192 … t * 8192 + 8191, so entry (r, l) of that tile is entry (t * 8192 + r, l) of the rows, that is entry
  (t * 8192 + r) * 128 + l of the flat array.
-/
import proofs.«129268_j82171314307698_1_alg».proof.Proof.Gen.KernelIdeal.Frame
import proofs.«129268_j82171314307698_1_alg».proof.Proof.TiledSum
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.SL.Sem
open Idealize.ShloMosaic.Pipeline (Dat)

namespace Cert.KernelIdeal.HingeValue

open Cert.KernelIdeal Cert.KernelIdeal.Gen Cert.HingeMean Idealize.ShloMosaic.ValueIdx

variable (m : (ℓ : Loc nD τ sig) → Buf (Elt Ideal) ℓ)

/-- The two inputs as launched (flat), and as the kernel's region finds them (rows of 128 lanes). -/
abbrev flatA (c : Dev nD) : FVec Ideal S33554432 .f32 := m ((c : Thread nD τ).loc main_arg0)
abbrev flatB (c : Dev nD) : FVec Ideal S33554432 .f32 := m ((c : Thread nD τ).loc main_arg1)
abbrev rowsA (c : Dev nD) : FVec Ideal S262144x128 .f32 := V m c main_v0
abbrev rowsB (c : Dev nD) : FVec Ideal S262144x128 .f32 := V m c main_v1

/-- The rows are the host's reshape of the flat input. -/
theorem rowsA_eq (c : Dev nD) : rowsA m c = shapeCast S262144x128 (flatA m c) shapeCasts_S33554432_S262144x128 := by
  show StableHlo.after hostOps0 (fun b => m (c, b)) (Proc.devRef .tc main_v0) = _
  after_results
  rfl
theorem rowsB_eq (c : Dev nD) : rowsB m c = shapeCast S262144x128 (flatB m c) shapeCasts_S33554432_S262144x128 := by
  show StableHlo.after hostOps0 (fun b => m (c, b)) (Proc.devRef .tc main_v1) = _
  after_results
  rfl

/-- Entry `(R, l)` of the reshaped rows is entry `R * 128 + l` of the flat array (row-major order). -/
theorem reshape_apply (x : FVec Ideal S33554432 .f32) (R : Fin 262144) (l : Fin 128) (k : Fin 33554432)
    (hk : k.val = R.val * 128 + l.val) :
    shapeCast S262144x128 x shapeCasts_S33554432_S262144x128 (ix2 R l) = x (ix1 k) :=
  shapeCast_apply x shapeCasts_S33554432_S262144x128 (ix2 R l) (ix1 k) (by
    rw [Shape.rowMajor_val_two, Shape.rowMajor_val_one]
    exact hk)

/-- The grid has 32 points; the input windows' block index at point `t` is `(t, 0)`. -/
theorem point_lt (t : Fin cfg0.N) : t.val < 32 := lt_of_lt_of_eq t.isLt N_0
theorem index_A : ∀ t : Fin cfg0.N, win0_0.index t 0 = t.val ∧ win0_0.index t 1 = 0 :=
  (by decide +kernel : ∀ t : Fin grid0.N, win0_0.index t 0 = t.val ∧ win0_0.index t 1 = 0)
theorem index_B : ∀ t : Fin cfg0.N, win0_1.index t 0 = t.val ∧ win0_1.index t 1 = 0 :=
  (by decide +kernel : ∀ t : Fin grid0.N, win0_1.index t 0 = t.val ∧ win0_1.index t 1 = 0)

/-- Entry `(r, l)` of point `t`'s tile is entry `(t * 8192 + r, l)` of the rows. -/
theorem tileA_apply (c : Dev nD) (t : Fin cfg0.N) (r : Fin 8192) (l : Fin 128) (R : Fin 262144)
    (hR : R.val = t.val * 8192 + r.val) :
    (iblk m c 0 t : FVec Ideal S8192x128 .f32) (ix2 r l) = rowsA m c (ix2 R l) := by
  unfold iblk
  rw [View.read_apply]
  show V m c main_v0 _ = V m c main_v0 _
  congr 1
  funext a
  apply Fin.ext
  match a with
  | ⟨0, _⟩ => show win0_0.index t 0 * 8192 + 1 * r.val = R.val; rw [(index_A t).1, hR]; omega
  | ⟨1, _⟩ => show win0_0.index t 1 * 128 + 1 * l.val = l.val; rw [(index_A t).2]; omega
theorem tileB_apply (c : Dev nD) (t : Fin cfg0.N) (r : Fin 8192) (l : Fin 128) (R : Fin 262144)
    (hR : R.val = t.val * 8192 + r.val) :
    (iblk m c 1 t : FVec Ideal S8192x128 .f32) (ix2 r l) = rowsB m c (ix2 R l) := by
  unfold iblk
  rw [View.read_apply]
  show V m c main_v1 _ = V m c main_v1 _
  congr 1
  funext a
  apply Fin.ext
  match a with
  | ⟨0, _⟩ => show win0_1.index t 0 * 8192 + 1 * r.val = R.val; rw [(index_B t).1, hR]; omega
  | ⟨1, _⟩ => show win0_1.index t 1 * 128 + 1 * l.val = l.val; rw [(index_B t).2]; omega

/-- So entry `(r, l)` of point `t`'s tile is the flat input at the tile's flat position. -/
theorem tileA_flat (c : Dev nD) (t : Fin cfg0.N) (r : Fin 8192) (l : Fin 128) :
    (iblk m c 0 t : FVec Ideal S8192x128 .f32) (ix2 r l) = flatA m c (ix1 (flat ⟨t.val, point_lt t⟩ r l)) := by
  have ht := point_lt t
  have hr := r.isLt
  rw [tileA_apply m c t r l ⟨t.val * 8192 + r.val, by omega⟩ rfl, rowsA_eq]
  exact reshape_apply _ _ _ _ rfl
theorem tileB_flat (c : Dev nD) (t : Fin cfg0.N) (r : Fin 8192) (l : Fin 128) :
    (iblk m c 1 t : FVec Ideal S8192x128 .f32) (ix2 r l) = flatB m c (ix1 (flat ⟨t.val, point_lt t⟩ r l)) := by
  have ht := point_lt t
  have hr := r.isLt
  rw [tileB_apply m c t r l ⟨t.val * 8192 + r.val, by omega⟩ rfl, rowsB_eq]
  exact reshape_apply _ _ _ _ rfl

end Cert.KernelIdeal.HingeValue

end
-- ==== Proof.Result.lean ====
/-
  The kernel program's result.

  The row is written back to the output array once, after the last grid step, and its one block is the whole array;
  so the array ends holding the row after step 31, whose lane l is the sum over all 32 tiles of the tile's column sum at
  lane l.  The host then adds the 128 lanes to the zero word and divides by the word of 2^25.  Summing the lanes of the
  tiles' column sums visits every position of the flat inputs exactly once, so the host's total is the sum of the hinges
  over the flat inputs, and the program's result is the mean hinge.
-/
import proofs.«129268_j82171314307698_1_alg».proof.Proof.Gen.KernelIdeal.Frame
import proofs.«129268_j82171314307698_1_alg».proof.Proof.TileTotal
import proofs.«129268_j82171314307698_1_alg».proof.Proof.Accumulate
import proofs.«129268_j82171314307698_1_alg».proof.Proof.Tiles
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.SL.Sem
open Idealize.ShloMosaic.Pipeline (Dat)

namespace Cert.KernelIdeal.HingeValue

open Cert.KernelIdeal Cert.KernelIdeal.Gen Cert.HingeMean Idealize.ShloMosaic.ValueIdx

variable (m : (ℓ : Loc nD τ sig) → Buf (Elt Ideal) ℓ) (ρ : Dev nD → PrngReg)

/-- The last grid point. -/
abbrev lastPt : Fin cfg0.N := ⟨31, by decide⟩

/-- The row after the last step: what the one write-back writes. -/
abbrev lastRow (c : Dev nD) : FVec Ideal S1x128 .f32 := rowAt m c 31 lastPt.isLt

/-- The write-back at the last point writes the row: block (0, 0) of the [1,128] array at zero offsets is the array. -/
theorem flushed_eq (c : Dev nD) (t : Fin cfg0.N) (hf : (cfg0.win 2).flush t = true) :
    (dats m 0 c).flushed 2 t = ((cfg0.win 2).blk t).view.read (Elt Ideal) (lastRow m c) := by
  have hN := point_lt t
  have h31 : t.val = 31 := by have := (flush0_2 t).mp hf; omega
  obtain rfl : t = lastPt := Fin.ext h31
  show (cfg0.win 2).cut (grid0.coords lastPt) ((dats m 0 c).after 2 lastPt) = _
  rw [after0_2]
  have hz' : (fun a => win0_2.index lastPt a * main_v2.ty.shape.size a) = fun _ => 0 :=
    funext fun a => by fin_cases a <;> decide +kernel
  exact (Memref.read_access_unit_zero (Elt Ideal) main_v2 hz' (fun a => by rw [congrFun hz' a]; simp) (lastRow m c)).symm

/-- So the output array ends holding the row after the last step. -/
theorem final_row (c : Dev nD) : (dats m 0 c).arrAt 2 cfg0.N = lastRow m c :=
  (dats m 0 c).arrAt_eq_of_cover 2 (lastRow m c) (flushed_eq m c) fun i =>
    ⟨lastPt, (flush0_2 lastPt).mpr rfl, by
      show i ∈ ((View.whole main_v2).slice (win0_2.rect lastPt)).set
      rw [View.set_slice_whole, Rect.mem_set_unit]
      intro a
      have h0 : (i 0 : Nat) < 1 := (i 0).isLt
      have h1 : (i 1 : Nat) < 128 := (i 1).isLt
      match a with
      | ⟨0, _⟩ => show win0_2.index lastPt 0 * win0_2.size 0 ≤ (i 0 : Nat) ∧ (i 0 : Nat) < win0_2.index lastPt 0 * win0_2.size 0 + win0_2.xsize (grid0.coords lastPt) 0
                  rw [show win0_2.index lastPt 0 * win0_2.size 0 = 0 from by decide +kernel, show win0_2.xsize (grid0.coords lastPt) 0 = 1 from by decide +kernel]; omega
      | ⟨1, _⟩ => show win0_2.index lastPt 1 * win0_2.size 1 ≤ (i 1 : Nat) ∧ (i 1 : Nat) < win0_2.index lastPt 1 * win0_2.size 1 + win0_2.xsize (grid0.coords lastPt) 1
                  rw [show win0_2.index lastPt 1 * win0_2.size 1 = 0 from by decide +kernel, show win0_2.xsize (grid0.coords lastPt) 1 = 128 from by decide +kernel]; omega⟩

/-- The host's lines after the kernel: the lanes of the output array added to the zero word, divided by the word of 2^25. -/
def hostMean (x : FVec Ideal S1x128 .f32) : FVec Ideal S_ .f32 :=
  Host.divf (F := Ideal) (Host.reduceAdd (F := Ideal) x (constant (F := Ideal) S_ .f32 0x00000000#32) reducesTo_S1x128_S_d0_1 h_S_)
    (constant (F := Ideal) S_ .f32 0x4C000000#32)

/-- What the program leaves in its result buffer: the host's lines applied to the output array after the kernel. -/
theorem tail_eq (c : Dev nD) :
    Pipeline.afterTail₀ cfgs (dats m) 0 (V0 m) [hostOps1] c main_v4 = hostMean (lastRow m c) := by
  unfold Pipeline.afterTail₀
  show StableHlo.after hostOps1 _ (Proc.devRef .tc main_v4) = _
  after_results
  rw [show Pipeline.withArrays (cfgs 0).spec c (V0 m c) (fun w => (dats m 0 c).arrAt w (cfgs 0).N) (Proc.devRef .tc main_v2)
      = lastRow m c from (Pipeline.withArrays_arr spec0 launch0.win.arr_inj c _ _ 2).trans (final_row m c)]
  rfl

/-- The host's lines at the result's one index: the zero word plus the sum of the row's lanes, divided by the word of 2^25. -/
theorem hostMean_apply (x : FVec Ideal S1x128 .f32) (i : S_.Idx) :
    hostMean x i
      = Ideal.div (Ideal.ofBits .f32 0x00000000#32 + ∑ l : Fin 128, x (ix2 0 l)) (Ideal.ofBits .f32 0x4C000000#32) := by
  have hsum : Host.reduceAdd (F := Ideal) x (constant (F := Ideal) S_ .f32 0x00000000#32) reducesTo_S1x128_S_d0_1 h_S_ i
      = Ideal.ofBits .f32 0x00000000#32 + ∑ l : Fin 128, x (ix2 0 l) := by
    simp only [Host.reduceAdd, Ideal.hostReduceAdd_def]
    refine (Ideal.hostReduceAdd_total reducesTo_S1x128_S_d0_1 (fun b => b.elim0) x _ i).trans ?_
    rw [sum_idx2, Fin.sum_univ_one]
    rfl
  unfold hostMean
  show Ideal.div (Host.reduceAdd (F := Ideal) x (constant (F := Ideal) S_ .f32 0x00000000#32) reducesTo_S1x128_S_d0_1 h_S_ i)
    (Ideal.ofBits .f32 0x4C000000#32) = _
  rw [hsum]

/-- The lanes of the last row add up to the sum of the hinges over the flat inputs: lane `l` holds the tiles' column sums
    at `l`, a tile's column sum at `l` runs over the tile's rows, and (tile, row, lane) visits every flat position once. -/
theorem lanes_total (c : Dev nD) : ∑ l : Fin 128, lastRow m c (ix2 0 l) = total (flatA m c) (flatB m c) := by
  unfold total
  rw [← sum_tiles (fun k => hinge (flatA m c (ix1 k)) (flatB m c (ix1 k)))]
  refine Finset.sum_congr rfl fun l _ => ?_
  refine (row_eq m c l 31 lastPt.isLt).trans ?_
  refine Finset.sum_congr rfl fun t _ => ?_
  unfold tileSum
  refine Finset.sum_congr rfl fun r _ => ?_
  exact congrArg₂ hinge (tileA_flat m c _ r l) (tileB_flat m c _ r l)

/-- The program's result is the mean hinge of the flat inputs. -/
theorem result_eq (c : Dev nD) : hostMean (lastRow m c) = mean (flatA m c) (flatB m c) := by
  funext i
  rw [hostMean_apply, lanes_total]
  rfl

/-- The run, read: every weakly fair execution terminates with the result buffer at the mean hinge of the inputs as
    launched, and the inputs unchanged. -/
theorem run : θ_run defs (onTc (τ := τ) (main (F := Ideal))) ⟨m, fun _ => 0, ρ⟩ fun r => ∀ c : Dev nD,
      r.2.mem ((c.tc : Thread nD τ).loc main_v4) = mean (flatA m c) (flatB m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans ((tail_eq m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.HingeValue

end
-- ==== Proof.Reference.lean ====
/-
  The reference program's result.

  The reference forms the hinge at every position of the flat inputs, adds them all to the zero word in one host sum,
  and divides by the word of 2^25: read one operation at a time this is the mean hinge of the two inputs.
-/
import proofs.«129268_j82171314307698_1_alg».proof.Proof.Gen.ReferenceIdeal.Run
import proofs.«129268_j82171314307698_1_alg».proof.Proof.Gen.ReferenceIdeal.Read
import proofs.«129268_j82171314307698_1_alg».proof.Proof.Hinge

noncomputable section

open scoped BigOperators
open Idealize.ShloMosaic Idealize.ShloMosaic.TcCoe Idealize.SL.Sem

namespace Cert.ReferenceIdeal.HingeRef

open Cert.ReferenceIdeal Cert.ReferenceIdeal.Gen Cert.ReferenceIdeal.Read Cert.HingeMean Idealize.ShloMosaic.ValueIdx

/-- The reference's array of hinges, at a position: the hinge of the inputs there. -/
theorem hinge_at (a b : FVec Ideal S33554432 .f32) (j : S33554432.Idx) :
    val_main_v4 (F := Ideal) a b j = hinge (a j) (b j) := by
  rw [val_main_v4_apply, val_main_v3_apply, val_main_cst_0_apply, val_main_v2_apply, val_main_v1_apply,
    val_main_cst_apply, val_main_v0_apply]
  rfl

/-- The reference's result is the mean hinge. -/
theorem result_eq (a b : FVec Ideal S33554432 .f32) : val_main_v6 (F := Ideal) a b = mean a b := by
  funext i
  rw [val_main_v6_apply, val_main_v5_apply, val_main_cst_1_apply, val_main_cst_2_apply]
  show Ideal.div (Ideal.ofBits .f32 0x00000000#32 + ∑ j : S33554432.Idx, val_main_v4 (F := Ideal) a b j)
      (Ideal.ofBits .f32 0x4C000000#32)
    = Ideal.div (Ideal.ofBits .f32 0x00000000#32 + total a b) (Ideal.ofBits .f32 0x4C000000#32)
  refine congrArg (fun s => Ideal.div (Ideal.ofBits .f32 0x00000000#32 + s) (Ideal.ofBits .f32 0x4C000000#32)) ?_
  unfold total
  rw [sum_idx1]
  exact Finset.sum_congr rfl fun k _ => hinge_at a b (ix1 k)

end Cert.ReferenceIdeal.HingeRef

end
-- ==== Proof.lean ====
/-
  The kernel and the reference compute the same mean hinge.

  Both take two flat arrays a, b of 2^25 floats.  The reference forms  max 0 (c - (a_k - b_k))  at every position k
  (c the float nearest to one tenth, the same word in both programs), adds all of them to zero in one sum, and divides
  by 2^25.  The kernel views each array as 262144 rows of 128 lanes, walks 32 tiles of 8192 rows, and keeps one row of
  128 running column sums of the hinges across the tiles; the host then adds the 128 lanes to zero and divides by the
  same 2^25.  At the ideal instance every operation is the exact one on the extended reals, where addition is
  commutative and associative (infinities included), so the kernel's sum by lanes, tiles and rows is the reference's
  sum over all positions: each flat position (t * 8192 + r) * 128 + l is visited exactly once.  No finiteness of the
  inputs is used.  The ideal pass rewrote nothing in the kernel, so the idealization claim is trivial; the two kernel
  frames are the generated ones, and the reference's frame is its generated run with the result dropped.
-/
import proofs.«129268_j82171314307698_1_alg».proof.Defs
import proofs.«129268_j82171314307698_1_alg».proof.Proof.Gen.Kernel
import proofs.«129268_j82171314307698_1_alg».proof.Proof.Gen.Kernel.Frame
import proofs.«129268_j82171314307698_1_alg».proof.Proof.Gen.KernelIdeal
import proofs.«129268_j82171314307698_1_alg».proof.Proof.Gen.KernelIdeal.Frame
import proofs.«129268_j82171314307698_1_alg».proof.Proof.Gen.ReferenceIdeal
import proofs.«129268_j82171314307698_1_alg».proof.Proof.Gen.ReferenceIdeal.Run
import proofs.«129268_j82171314307698_1_alg».proof.Proof.Gen.ReferenceIdeal.Read
import proofs.«129268_j82171314307698_1_alg».proof.Proof.Gen.Pre_finite_inputs
import proofs.«129268_j82171314307698_1_alg».proof.Proof.Result
import proofs.«129268_j82171314307698_1_alg».proof.Proof.Reference
import Idealize.ShloMosaic.Adequacy
import Idealize.ShloMosaic.Init

noncomputable section

namespace Cert.Proof

open Idealize.ShloMosaic Idealize.SL.Sem

/-- The word-level kernel and its idealization run and keep their arguments: the generated frames. -/
theorem frame_kernel : Cert.frame_Kernel := fun m ρ _ => Cert.Kernel.Gen.frame m ρ
theorem frame_kernelIdeal : Cert.frame_KernelIdeal := fun m ρ _ => Cert.KernelIdeal.Gen.frame m ρ

/-- The reference runs and keeps its arguments: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the two inputs, the kernel program ends with its result at the mean hinge of its inputs
    and the reference with its result at the mean hinge of its own: the same extended real. -/
theorem algebraic : Cert.algebraic_KernelIdeal_ReferenceIdeal := by
  intro m ρ m' ρ' _ hagree
  refine ⟨fun c => Cert.HingeMean.mean (Cert.KernelIdeal.HingeValue.flatA m c) (Cert.KernelIdeal.HingeValue.flatB m c),
    Cert.KernelIdeal.HingeValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.HingeRef.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
